-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x128 : Shape := ⟨3, ![256, 2048, 128]⟩
abbrev S_ : Shape := ⟨0, ![]⟩

class Facts : Prop where
  bcast_S_S256x2048x128 : S_.BroadcastsInDim S256x2048x128 (![] : Fin 0 → Fin S256x2048x128.rank)
  reducesTo_S256x2048x128_S_d0_1_2 : S256x2048x128.ReducesTo [0, 1, 2] S_
  h_S_ : 0 < S_.numel

variable [Facts]

def fn {F : FTy → Type} [FloatOps F] (main_arg0 : FVec F S256x2048x128 .f32) (main_arg1 : FVec F S256x2048x128 .f32) : IVec S_ 1 :=
  let main_v0 : FVec F S256x2048x128 .f32 := Host.absf main_arg0
  let main_cst : FVec F S_ .f32 := constant S_ .f32 0x7F800000#32
  let main_v1 : FVec F S256x2048x128 .f32 := broadcastInDim S256x2048x128 ![] bcast_S_S256x2048x128 main_cst
  let main_v2 : IVec S256x2048x128 1 := cmpf .olt main_v0 main_v1
  let main_c : IVec S_ 1 := constantI S_ 1 1#1
  let main_v3 : IVec S_ 1 := (fun x v => Host.reduce IntOp.andi x v reducesTo_S256x2048x128_S_d0_1_2 h_S_) main_v2 main_c
  let main_v4 : FVec F S256x2048x128 .f32 := Host.absf main_arg1
  let main_cst_0 : FVec F S_ .f32 := constant S_ .f32 0x7F800000#32
  let main_v5 : FVec F S256x2048x128 .f32 := broadcastInDim S256x2048x128 ![] bcast_S_S256x2048x128 main_cst_0
  let main_v6 : IVec S256x2048x128 1 := cmpf .olt main_v4 main_v5
  let main_c_1 : IVec S_ 1 := constantI S_ 1 1#1
  let main_v7 : IVec S_ 1 := (fun x v => Host.reduce IntOp.andi x v reducesTo_S256x2048x128_S_d0_1_2 h_S_) main_v6 main_c_1
  let main_v8 : IVec S_ 1 := andi main_v3 main_v7
  main_v8
-- ==== Kernel.lean ====
abbrev S256x2048x128 : Shape := ⟨3, ![256, 2048, 128]⟩
abbrev S256x128 : Shape := ⟨2, ![256, 128]⟩
abbrev S16x2048x128 : Shape := ⟨3, ![16, 2048, 128]⟩
abbrev S16x128 : Shape := ⟨2, ![16, 128]⟩
abbrev S1x1 : Shape := ⟨2, ![1, 1]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S1 : Shape := ⟨1, ![1]⟩
abbrev S_ : Shape := ⟨0, ![]⟩

abbrev nBuf : Space → Nat
  | .hbm => 6
  | .vmem => 11
  | .smem => 0
  | _ => 0

abbrev bufTy : (tb : Table) → Fin (tcTables nBuf tb) → BufTy
  | .hbm, ⟨0, _⟩ => ⟨S256x2048x128, .f32⟩
  | .hbm, ⟨1, _⟩ => ⟨S256x2048x128, .f32⟩
  | .hbm, ⟨2, _⟩ => ⟨S256x128, .f32⟩
  | .hbm, ⟨3, _⟩ => ⟨S256x128, .f32⟩
  | .hbm, ⟨4, _⟩ => ⟨S1x1, .f32⟩
  | .hbm, ⟨5, _⟩ => ⟨S_, .f32⟩
  | .local _ .vmem, ⟨0, _⟩ => ⟨S16x2048x128, .f32⟩
  | .local _ .vmem, ⟨1, _⟩ => ⟨S16x2048x128, .f32⟩
  | .local _ .vmem, ⟨2, _⟩ => ⟨S16x128, .f32⟩
  | .local _ .vmem, ⟨3, _⟩ => ⟨S16x128, .f32⟩
  | .local _ .vmem, ⟨4, _⟩ => ⟨S16x2048x128, .f32⟩
  | .local _ .vmem, ⟨5, _⟩ => ⟨S16x2048x128, .f32⟩
  | .local _ .vmem, ⟨6, _⟩ => ⟨S16x128, .f32⟩
  | .local _ .vmem, ⟨7, _⟩ => ⟨S16x128, .f32⟩
  | .local _ .vmem, ⟨8, _⟩ => ⟨S256x128, .f32⟩
  | .local _ .vmem, ⟨9, _⟩ => ⟨S256x128, .f32⟩
  | .local _ .vmem, ⟨10, _⟩ => ⟨S1x1, .f32⟩
  | _, _ => ⟨S256x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S16x2048x128_S16x2048x128_0_0_0 : ∀ a, (![0, 0, 0] : Fin 3 → Nat) a + S16x2048x128.size a ≤ S16x2048x128.size a
  h_S16x2048x128 : 0 < S16x2048x128.numel
  reduces_S16x2048x128_S16x128 : S16x2048x128.Reduces [1] S16x128
  inb_S16x128_S16x128_0_0 : ∀ a, (![0, 0] : Fin 2 → Nat) a + S16x128.size a ≤ S16x128.size a
  h_S16x128 : 0 < S16x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  transposes_S256x128_p1_0_S128x256 : S256x128.Transposes [1, 0] S128x256
  transposes_S256x1_p1_0_S1x256 : S256x1.Transposes [1, 0] S1x256
  broadcasts_S256x1_S256x256 : S256x1.Broadcasts S256x256
  broadcasts_S1x256_S256x256 : S1x256.Broadcasts S256x256
  reduces_S256x256_S256 : S256x256.Reduces [1] S256
  reduces_S256x1_S1 : S256x1.Reduces [0] S1
  shapeCasts_S1_S1x1 : S1.ShapeCasts S1x1
  iota_S256x256_d0_w32 : S256x256.Iotas .tc 32 [0]
  iota_S256x256_d1_w32 : S256x256.Iotas .tc 32 [1]
  inb_S1x1_S1x1_0_0 : ∀ a, (![0, 0] : Fin 2 → Nat) a + S1x1.size a ≤ S1x1.size a
  h_S1x1 : 0 < S1x1.numel
  shapeCasts_S1x1_S_ : S1x1.ShapeCasts S_
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048x128.size a ≤ S256x2048x128.size a
  hwx0_0 : ∀ i : grid0.Coords, EltTy.bits .f32 = 32 ∨ (Rect.block (s := S256x2048x128) S16x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S256x128.size a
  hwx0_1 : ∀ i : grid0.Coords, EltTy.bits .f32 = 32 ∨ (Rect.block (s := S256x128) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x2048x128.size a ≤ S256x2048x128.size a
  hwx1_0 : ∀ i : grid1.Coords, EltTy.bits .f32 = 32 ∨ (Rect.block (s := S256x2048x128) S16x2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S256x128.size a
  hwx1_1 : ∀ i : grid1.Coords, EltTy.bits .f32 = 32 ∨ (Rect.block (s := S256x128) S16x128.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S16x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S16x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x2048x128 : Shape := ⟨3, ![256, 2048, 128]⟩
abbrev S_ : Shape := ⟨0, ![]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x256 : Shape := ⟨2, ![128, 256]⟩

abbrev nBuf : Space → Nat
  | .hbm => 121
  | .vmem => 0
  | .smem => 0
  | _ => 0

abbrev bufTy : (tb : Table) → Fin (tcTables nBuf tb) → BufTy
  | .hbm, ⟨0, _⟩ => ⟨S256x2048x128, .f32⟩
  | .hbm, ⟨1, _⟩ => ⟨S256x2048x128, .f32⟩
  | .hbm, ⟨2, _⟩ => ⟨S_, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x128, .f32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S128x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S256x128, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S256x128, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x128, .f32⟩
  | .hbm, ⟨60, _⟩ => ⟨S256x128, .f32⟩
  | .hbm, ⟨61, _⟩ => ⟨S128x256, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S256x128, .f32⟩
  | .hbm, ⟨81, _⟩ => ⟨S_, .f32⟩
  | .hbm, ⟨82, _⟩ => ⟨S256, .f32⟩
  | .hbm, ⟨83, _⟩ => ⟨S256x1, .f32⟩
  | .hbm, ⟨84, _⟩ => ⟨S256x128, .f32⟩
  | .hbm, ⟨85, _⟩ => ⟨S_, .f32⟩
  | .hbm, ⟨86, _⟩ => ⟨S256, .f32⟩
  | .hbm, ⟨87, _⟩ => ⟨S1x256, .f32⟩
  | .hbm, ⟨88, _⟩ => ⟨S256x256, .f32⟩
  | .hbm, ⟨89, _⟩ => ⟨S256x256, .f32⟩
  | .hbm, ⟨90, _⟩ => ⟨S256x256, .f32⟩
  | .hbm, ⟨91, _⟩ => ⟨S_, .f32⟩
  | .hbm, ⟨92, _⟩ => ⟨S256x128, .f32⟩
  | .hbm, ⟨93, _⟩ => ⟨S256x128, .f32⟩
  | .hbm, ⟨94, _⟩ => ⟨S128x256, .f32⟩
  | .hbm, ⟨95, _⟩ => ⟨S256x256, .f32⟩
  | .hbm, ⟨96, _⟩ => ⟨S256x256, .f32⟩
  | .hbm, ⟨97, _⟩ => ⟨S_, .f32⟩
  | .hbm, ⟨98, _⟩ => ⟨S256x256, .f32⟩
  | .hbm, ⟨99, _⟩ => ⟨S256x256, .f32⟩
  | .hbm, ⟨100, _⟩ => ⟨S256x256, .i32⟩
  | .hbm, ⟨101, _⟩ => ⟨S_, .i32⟩
  | .hbm, ⟨102, _⟩ => ⟨S256x256, .i32⟩
  | .hbm, ⟨103, _⟩ => ⟨S256x256, .i32⟩
  | .hbm, ⟨104, _⟩ => ⟨S256x256, .i32⟩
  | .hbm, ⟨105, _⟩ => ⟨S256x256, .i1⟩
  | .hbm, ⟨106, _⟩ => ⟨S_, .f32⟩
  | .hbm, ⟨107, _⟩ => ⟨S256x256, .f32⟩
  | .hbm, ⟨108, _⟩ => ⟨S256x256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S256x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_cst : Ref sig .tc := ⟨.hbm, 73, rfl⟩
abbrev main_call0_v5 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_cst_18 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_21 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_c : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_cst : Ref sig .tc := ⟨.hbm, 106, rfl⟩
abbrev main_call1_v5 : Ref sig .tc := ⟨.hbm, 107, rfl⟩
abbrev main_v67 : Ref sig .tc := ⟨.hbm, 108, rfl⟩
abbrev main_cst_22 : Ref sig .tc := ⟨.hbm, 109, rfl⟩
abbrev main_v68 : Ref sig .tc := ⟨.hbm, 110, rfl⟩
abbrev main_cst_23 : Ref sig .tc := ⟨.hbm, 111, rfl⟩
abbrev main_v69 : Ref sig .tc := ⟨.hbm, 112, rfl⟩
abbrev main_cst_24 : Ref sig .tc := ⟨.hbm, 113, rfl⟩
abbrev main_v70 : Ref sig .tc := ⟨.hbm, 114, rfl⟩
abbrev main_cst_25 : Ref sig .tc := ⟨.hbm, 115, rfl⟩
abbrev main_v71 : Ref sig .tc := ⟨.hbm, 116, rfl⟩
abbrev main_v72 : Ref sig .tc := ⟨.hbm, 117, rfl⟩
abbrev main_cst_26 : Ref sig .tc := ⟨.hbm, 118, rfl⟩
abbrev main_v73 : Ref sig .tc := ⟨.hbm, 119, rfl⟩
abbrev main_v74 : Ref sig .tc := ⟨.hbm, 120, rfl⟩

abbrev nD : Nat := 1
abbrev τ : Topo := Topo.v7x

variable {F : FTy → Type} [FloatOps F]

class Facts₀ : Prop where
  reducesTo_S256x2048x128_S256x128_d1 : S256x2048x128.ReducesTo [1] S256x128
  h_S_ : 0 < S_.numel
  bcast_S_S256x128 : S_.BroadcastsInDim S256x128 (![] : Fin 0 → Fin S256x128.rank)
  reducesTo_S256x128_S256_d1 : S256x128.ReducesTo [1] S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x128_S128x256_1_0 : S256x128.Transposes [1, 0] S128x256
  bcast_S_S256x256 : S_.BroadcastsInDim S256x256 (![] : Fin 0 → Fin S256x256.rank)
  reducesTo_S256x256_S_d0_1 : S256x256.ReducesTo [0, 1] S_
  dot_S256x128_S128x256_S256x256_1_0_0_1_n_n_wf : DotDims.WF S256x128 S128x256 S256x256 [1] [0] [0] [1] [] []

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

class Facts : Prop extends Facts₀ where

variable [Facts]
-- ==== Proof.Spec.lean ====
/-
  The mathematics of the contrastive loss, stated once over the extended reals.

  From two arrays x, y of shape [256, 2048, 128] the loss is computed in two stages.
  The centroid of batch b at feature d is the mean over the 2048 tokens, (∑ₛ x[b,s,d]) / 2048.
  On the two centroid matrices a, b of shape [256, 128]:
    squared norm    N a i     = ∑_d a[i,d]²
    inner product   ⟨a,b⟩ i j = ∑_d a[i,d]·b[j,d]
    squared distance D a b i j = max (N a i + N b j - 2·⟨a,b⟩ i j) 0
    separation      = (∑ᵢ ∑ⱼ max (10 - √(D a b i j + ε)) 0 ²) / 65536
    clustering a    = (∑ᵢ ∑ⱼ [i < j] · D a a i j) / 32640
    total           = 3·separation + 0.3·clustering a + 0.3·clustering b.
  Every float literal stays the extended real its bit pattern denotes; only two of them (2048 and 2) are ever
  evaluated, and only to know that they are real numbers.

  Two spellings of the inner product's scaling occur: 2·(∑_d a·b) and ∑_d (2·a)·b. They agree on real-valued
  matrices (multiplication by a real distributes over a finite sum of reals), not on all extended reals; the
  centroids of finite inputs are real-valued.
-/
import Idealize.ShloMosaic.PureOps.Ideal
import Idealize.ShloMosaic.PureOps.Ideal.Laws
import Idealize.ShloMosaic.Lib.ValueIdx

noncomputable section

namespace Cert.Contrastive

open Idealize.ShloMosaic Idealize.ShloMosaic.ValueIdx

/-- An input array: batch × token × feature. -/
abbrev Tokens := (⟨3, ![256, 2048, 128]⟩ : Shape).Idx → EReal
/-- A centroid matrix: batch × feature. -/
abbrev Cents := (⟨2, ![256, 128]⟩ : Shape).Idx → EReal

abbrev cTokens : EReal := Ideal.ofBits .f32 0x45000000#32
abbrev cTwo : EReal := Ideal.ofBits .f32 0x40000000#32
abbrev cZero : EReal := Ideal.ofBits .f32 0x00000000#32
abbrev cEps : EReal := Ideal.ofBits .f32 0x2B8CBCCC#32
abbrev cMargin : EReal := Ideal.ofBits .f32 0x41200000#32
abbrev cPairs : EReal := Ideal.ofBits .f32 0x47800000#32
abbrev cUpper : EReal := Ideal.ofBits .f32 0x46FF0000#32
abbrev cAlpha : EReal := Ideal.ofBits .f32 0x40400000#32
abbrev cBeta : EReal := Ideal.ofBits .f32 0x3E99999A#32

/-- The mean over the token axis. -/
def centroid (x : Tokens) : Cents := fun i => Ideal.div (∑ s : Fin 2048, x (ix3 (i 0) s (i 1))) cTokens

def sqNorm (a : Cents) (i : Fin 256) : EReal := ∑ d : Fin 128, a (ix2 i d) * a (ix2 i d)

def inner (a b : Cents) (i j : Fin 256) : EReal := ∑ d : Fin 128, a (ix2 i d) * b (ix2 j d)

/-- The inner product with the left factor scaled entry by entry. -/
def innerScaled (a b : Cents) (i j : Fin 256) : EReal := ∑ d : Fin 128, (cTwo * a (ix2 i d)) * b (ix2 j d)

/-- The clamped squared distance, from a given value of twice the inner product. -/
def sqDistOf (a b : Cents) (twice : Fin 256 → Fin 256 → EReal) (i j : Fin 256) : EReal :=
  max (sqNorm a i + sqNorm b j - twice i j) cZero

def hingeOf (D : Fin 256 → Fin 256 → EReal) (i j : Fin 256) : EReal :=
  max (cMargin - Ideal.sqrt (D i j + cEps)) cZero * max (cMargin - Ideal.sqrt (D i j + cEps)) cZero

def separationOf (D : Fin 256 → Fin 256 → EReal) : EReal :=
  Ideal.div (∑ i : Fin 256, ∑ j : Fin 256, hingeOf D i j) cPairs

def clusteringOf (D : Fin 256 → Fin 256 → EReal) : EReal :=
  Ideal.div (∑ i : Fin 256, ∑ j : Fin 256, if i < j then D i j else cZero) cUpper

/-- The loss from a choice of "twice the inner product". -/
def totalOf (tw : Cents → Cents → Fin 256 → Fin 256 → EReal) (a b : Cents) : EReal :=
  cAlpha * separationOf (sqDistOf a b (tw a b)) + cBeta * clusteringOf (sqDistOf a a (tw a a))
    + cBeta * clusteringOf (sqDistOf b b (tw b b))

/-- The loss with 2·⟨a,b⟩. -/
def total (a b : Cents) : EReal := totalOf (fun a b i j => cTwo * inner a b i j) a b

/-- The loss with ⟨2·a,b⟩. -/
def totalScaled (a b : Cents) : EReal := totalOf innerScaled a b

/-! ## Real-valued arrays -/

/-- Every entry is a real number. -/
def IsReal {ι : Type} (f : ι → EReal) : Prop := ∀ i, ∃ r : ℝ, f i = (r : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem cTwo_eq : cTwo = ((2 : ℝ) : EReal) := by
  simp [Ideal.ofBits, Ideal.ieee, -EReal.coe_mul]; norm_num

theorem cTokens_eq : cTokens = ((2048 : ℝ) : EReal) := by
  simp [Ideal.ofBits, Ideal.ieee, -EReal.coe_mul]; norm_num

/-- Scaling the left factor entry by entry scales the inner product, on real-valued matrices. -/
theorem innerScaled_eq (a b : Cents) (ha : IsReal a) (hb : IsReal b) (i j : Fin 256) :
    innerScaled a b i j = cTwo * inner a b i j := by
  choose ra hra using ha
  choose rb hrb using hb
  unfold innerScaled inner
  simp only [hra, hrb, cTwo_eq, ← EReal.coe_mul, coe_sum]
  rw [Finset.mul_sum]
  exact congrArg _ (Finset.sum_congr rfl fun d _ => by ring)

/-- The centroids of a real-valued array are real-valued. -/
theorem centroid_isReal (x : Tokens) (hx : IsReal x) : IsReal (centroid x) := by
  choose rx hrx using hx
  intro i
  unfold centroid
  simp only [hrx, coe_sum, cTokens_eq]
  rw [Ideal.div_coe (by norm_num : (2048 : ℝ) ≠ 0), ← EReal.coe_mul]
  exact ⟨_, rfl⟩

/-- The two spellings of the loss agree on real-valued centroid matrices. -/
theorem totalScaled_eq (a b : Cents) (ha : IsReal a) (hb : IsReal b) : totalScaled a b = total a b := by
  unfold totalScaled total totalOf
  have e : ∀ (p q : Cents), IsReal p → IsReal q → innerScaled p q = fun i j => cTwo * inner p q i j :=
    fun p q hp hq => funext fun i => funext fun j => innerScaled_eq p q hp hq i j
  rw [e a b ha hb, e a a ha ha, e b b hb hb]

end Cert.Contrastive

end
-- ==== Proof.Finite.lean ====
/-
  Finite inputs are real-valued.

  The precondition is the conjunction, over both input arrays, of "every entry has absolute value below +∞".
  On the extended reals |x| = max x (-x) is below ⊤ exactly when x is neither ⊤ nor ⊥, that is, when x is a real number.
-/
import proofs.«128824_j79207786873536_1_alg».proof.Pre_finite_inputs
import proofs.«128824_j79207786873536_1_alg».proof.Proof.Gen.Pre_finite_inputs
import proofs.«128824_j79207786873536_1_alg».proof.Proof.Spec
import Idealize.ShloMosaic.Lib.ReduceAll

noncomputable section

namespace Cert.Contrastive

open Idealize.ShloMosaic

namespace Finite

/-- The f32 pattern with all-ones exponent, zero fraction and clear sign denotes +∞. -/
theorem ofBits_inf : Ideal.ofBits .f32 0x7F800000#32 = (⊤ : EReal) := by
  simp [Ideal.ofBits, Ideal.ieee]

/-- An extended real whose absolute value max a (-a) compares below +∞ is a real number:
    at ⊤ the maximum is ⊤, at ⊥ it is -⊥ = ⊤, and ⊤ < ⊤ fails. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- The result of a reduction over all three axes has exactly one index. -/
instance subsingleton_scalar_idx : Subsingleton Cert.Pre_finite_inputs.S_.Idx := ⟨fun a b => funext fun d => d.elim0⟩

end Finite

/-- If the finiteness predicate of two arrays is all ones, every entry of both is a real number. -/
theorem isReal_of_pre (x y : FVec Ideal Cert.Pre_finite_inputs.S256x2048x128 .f32)
    (h : Cert.Pre_finite_inputs.fn (F := Ideal) x y = fun _ => 1#1) :
    IsReal (x : Tokens) ∧ IsReal (y : Tokens) := by
  -- The predicate at its one index is the conjunction of the two reductions.
  have h0 := congrFun h ValueIdx.ix0
  dsimp only [Cert.Pre_finite_inputs.fn] at h0
  obtain ⟨hx, hy⟩ := IntOp.andi_eq_one.1 h0
  -- A reduction by "and" over all axes that is one has a one at every entry: |entry| < +∞.
  refine ⟨fun i => ?_, fun i => ?_⟩
  · have e := Host.reduce_andi_all _ _ _ _ _ hx i
    exact Finite.real_of_abs_lt_inf (x i) e
  · have e := Host.reduce_andi_all _ _ _ _ _ hy i
    exact Finite.real_of_abs_lt_inf (y i) e

end Cert.Contrastive

end
-- ==== Proof.LossPayload.lean ====
/-
  What the loss kernel's body stores, as a function of the two centroid matrices it loads: the total loss.
-/
import proofs.«128824_j79207786873536_1_alg».proof.Proof.Gen.KernelIdeal.Skeleton
import proofs.«128824_j79207786873536_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.LossValue

open Cert.KernelIdeal Cert.KernelIdeal.Gen Cert.Contrastive Idealize.ShloMosaic Idealize.ShloMosaic.ValueIdx

/-! ## Column forms of the layout operations -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The lane sums -/

/-- A sum over the lane axis of a `[256, 128]` vector, at row `r`. -/
theorem laneSum128 (src : FVec Ideal S256x128 .f32) (h : S256x128.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ d : Fin 128, src (ix2 r d) := by
  refine (Ideal.multiReduction_add_single src 0x00000000#32 h hφ hacc (ix1 r)).trans ?_
  refine Finset.sum_congr rfl fun d _ => ?_
  exact congrArg src (funext fun a => Fin.ext (by match a with | ⟨0, _⟩ => rfl | ⟨1, _⟩ => rfl))

/-- A sum over the lane axis of a `[256, 256]` vector, at row `r`. -/
theorem laneSum256 (src : FVec Ideal S256x256 .f32) (h : S256x256.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ d : Fin 256, src (ix2 r d) := by
  refine (Ideal.multiReduction_add_single src 0x00000000#32 h hφ hacc (ix1 r)).trans ?_
  refine Finset.sum_congr rfl fun d _ => ?_
  exact congrArg src (funext fun a => Fin.ext (by match a with | ⟨0, _⟩ => rfl | ⟨1, _⟩ => rfl))

/-- A sum over the row axis of a `[256, 1]` column, at its one entry. -/
theorem rowSum256 (src : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ i : Fin 256, src (ix2 i u) := by
  refine (Ideal.multiReduction_add_single src 0x00000000#32 h hφ hacc (ix1 u)).trans ?_
  refine Finset.sum_congr rfl fun d _ => ?_
  exact congrArg src (funext fun a => Fin.ext (by match a with | ⟨0, _⟩ => rfl | ⟨1, _⟩ => rfl))

/-! ## The loaded matrices and their squared norms -/

/-- The first loaded matrix, cast to its own shape, is itself. -/
theorem pay1_eq (x : Vec Ideal S256x128 .f32) : k2_pay1 x = x := by
  unfold k2_pay1; exact shapeCast_self x _

/-- The second loaded matrix, cast to its own shape, is itself. -/
theorem pay2_eq (x : Vec Ideal S256x128 .f32) : k2_pay2 x = x := by
  unfold k2_pay2; exact shapeCast_self x _

/-- The column of squared row norms of the first matrix. -/
theorem pay3_apply (x : Vec Ideal S256x128 .f32) (i : Fin 256) (u : Fin 1) :
    k2_pay3 x (ix2 i u) = sqNorm (x : Cents) i := by
  unfold k2_pay3
  rw [pay1_eq]
  refine (shapeCast_a_a1_apply _ shapeCasts_S256_S256x1 i u).trans ?_
  exact laneSum128 (mulf x x) reduces_S256x128_S256 (.inl rfl) rfl i

/-- The column of squared row norms of the second matrix. -/
theorem pay4_apply (x : Vec Ideal S256x128 .f32) (i : Fin 256) (u : Fin 1) :
    k2_pay4 x (ix2 i u) = sqNorm (x : Cents) i := by
  unfold k2_pay4
  rw [pay2_eq]
  refine (shapeCast_a_a1_apply _ shapeCasts_S256_S256x1 i u).trans ?_
  exact laneSum128 (mulf x x) reduces_S256x128_S256 (.inl rfl) rfl i

/-! ## The product with a transposed matrix -/

/-- The left operand's index at output `(i, j)` and contraction coordinate `q`: row `i` … -/
theorem lhs_dot_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
/-- … and column `q`. -/
theorem lhs_dot_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
/-- The right operand's index: row `q` … -/
theorem rhs_dot_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
/-- … and column `j`. -/
theorem rhs_dot_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The product of `x` with the transpose of `y`, accumulated into the zero splat, at `(i, j)`:
    the inner product of row `i` of `x` with row `j` of `y`. -/
theorem matmulT_apply (x y : FVec Ideal S256x128 .f32) (i j : Fin 256) :
    matmul dot_S256x128_S128x256_S256x256_1_0_0_1_n_n none x
        (transpose S128x256 [1, 0] y transposes_S256x128_p1_0_S128x256) (constant (F := Ideal) S256x256 .f32 0x00000000#32) (ix2 i j)
      = Contrastive.inner (x : Cents) (y : Cents) i j := by
  generalize hT : transpose S128x256 [1, 0] y transposes_S256x128_p1_0_S128x256 = yT
  refine (Ideal.matmul_constant_zero_apply dot_S256x128_S128x256_S256x256_1_0_0_1_n_n none x yT (ix2 i j)).trans ?_
  rw [← Equiv.sum_comp (contrEquiv1 dot_S256x128_S128x256_S256x256_1_0_0_1_n_n 128 rfl rfl).symm]
  unfold Contrastive.inner
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 i j) ((contrEquiv1 dot_S256x128_S128x256_S256x256_1_0_0_1_n_n 128 rfl rfl).symm k) = ix2 i k := funext fun a => Fin.ext (by
    match a with
    | ⟨0, _⟩ => exact lhs_dot_0 _ _
    | ⟨1, _⟩ => exact (lhs_dot_1 _ _).trans hk)
  have er : dot_S256x128_S128x256_S256x256_1_0_0_1_n_n.rhsIdx (ix2 i j) ((contrEquiv1 dot_S256x128_S128x256_S256x256_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er, ← hT]
  exact congrArg (x (ix2 i k) * ·) (transpose_ix2_apply y transposes_S256x128_p1_0_S128x256 k j)

/-- The Gram matrix of the first loaded matrix. -/
theorem pay6_apply (x : Vec Ideal S256x128 .f32) (i j : Fin 256) :
    k2_pay6 x (ix2 i j) = Contrastive.inner (x : Cents) (x : Cents) i j := by
  unfold k2_pay6
  rw [pay1_eq]
  exact matmulT_apply x x i j

/-! ## The matrix of sums of squared norms -/

/-- A column `p` spread along the rows plus a column `q`, transposed, spread along the columns, at `(i, j)`. -/
theorem normSum_apply (p q : FVec Ideal S256x1 .f32) (i j : Fin 256) :
    addf (broadcastTo S256x256 p broadcasts_S256x1_S256x256)
        (broadcastTo S256x256 (transpose S1x256 [1, 0] q transposes_S256x1_p1_0_S1x256) broadcasts_S1x256_S256x256) (ix2 i j)
      = p (ix2 i (0 : Fin 1)) + q (ix2 j (0 : Fin 1)) := by
  refine (addf_apply _ _ _).trans ?_
  refine congrArg₂ (· + ·) (broadcastTo_a1_ab_apply p broadcasts_S256x1_S256x256 i j) ?_
  refine (broadcastTo_1b_ab_apply _ broadcasts_S1x256_S256x256 i j).trans ?_
  exact transpose_ix2_apply q transposes_S256x1_p1_0_S1x256 (0 : Fin 1) j

/-- The matrix of sums of squared norms of the first loaded matrix. -/
theorem pay7_apply (x : Vec Ideal S256x128 .f32) (i j : Fin 256) :
    k2_pay7 x (ix2 i j) = sqNorm (x : Cents) i + sqNorm (x : Cents) j := by
  unfold k2_pay7
  refine (normSum_apply (k2_pay3 x) (k2_pay3 x) i j).trans ?_
  exact congrArg₂ (· + ·) (pay3_apply x i 0) (pay3_apply x j 0)

/-! ## The strict upper triangle -/

/-- The signed comparison "column index above row index" on coordinates below 256, as a select. -/
theorem mask_select (i j : Fin 256) (A B : EReal) :
    Scalar.select (IntOp.cmpi .sgt (BitVec.ofNat 32 j.val) (BitVec.ofNat 32 i.val)) A B = if i < j then A else B := by
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have key := StableHlo.Predicate.sgt_iff_toNat (a := BitVec.ofNat 32 j.val) (b := BitVec.ofNat 32 i.val)
    (by rw [hj]; have := j.isLt; omega) (by rw [hi]; have := i.isLt; omega)
  rw [hi, hj] at key
  by_cases h : i < j
  · rw [key.mpr h, select_one, if_pos h]
  · rw [eq_zero_of_ne_one (fun h1 => h (key.mp h1)), select_zero, if_neg h]

/-- A matrix kept above the diagonal and replaced by `Z` elsewhere, at `(i, j)`. -/
theorem masked_apply (D Z : FVec Ideal S256x256 .f32) (i j : Fin 256) :
    select (cmpi .sgt (iota .tc S256x256 32 [1] iota_S256x256_d1_w32) (iota .tc S256x256 32 [0] iota_S256x256_d0_w32)) D Z (ix2 i j)
      = if i < j then D (ix2 i j) else Z (ix2 i j) := by
  refine (select_apply _ _ _ _).trans ?_
  show Scalar.select (IntOp.cmpi .sgt (iota .tc S256x256 32 [1] iota_S256x256_d1_w32 (ix2 i j)) (iota .tc S256x256 32 [0] iota_S256x256_d0_w32 (ix2 i j))) _ _ = _
  rw [iota_single_apply, iota_single_apply]
  exact mask_select i j _ _

/-! ## The two-stage sum -/

/-- Lane sums, the column of them summed over the rows, and the result as a `[1, 1]` vector: the double sum. -/
theorem twoStageSum_apply (M : FVec Ideal S256x256 .f32) (j : S1x1.Idx) :
    shapeCast S1x1 (multiReduction (F := Ideal) .add [0] S1
        (shapeCast S256x1 (multiReduction (F := Ideal) .add [1] S256 M 0x00000000#32 reduces_S256x256_S256 (.inl rfl) rfl) shapeCasts_S256_S256x1)
        0x00000000#32 reduces_S256x1_S1 (.inl rfl) rfl) shapeCasts_S1_S1x1 j
      = ∑ i : Fin 256, ∑ k : Fin 256, M (ix2 i k) := by
  obtain ⟨u, v, rfl⟩ : ∃ (u v : Fin 1), j = ix2 u v := ⟨j 0, j 1, eq_ix2 j⟩
  refine (shapeCast_a_1a_apply _ shapeCasts_S1_S1x1 u v).trans ?_
  refine (rowSum256 _ reduces_S256x1_S1 (.inl rfl) rfl v).trans ?_
  refine Finset.sum_congr rfl fun i _ => ?_
  refine (shapeCast_a_a1_apply _ shapeCasts_S256_S256x1 i v).trans ?_
  exact laneSum256 M reduces_S256x256_S256 (.inl rfl) rfl i

/-! ## The kernel's matrices, named -/

/-- The clamped squared-distance matrix, from the matrix of norm sums `N`, the scaling matrix `T` and the product matrix `P`. -/
def distMat (N T P : FVec Ideal S256x256 .f32) : FVec Ideal S256x256 .f32 :=
  maximumf (subf N (mulf T P)) (broadcast S256x256 (Scalar.ofBits .f32 0x00000000#32))

theorem distMat_apply (N T P : FVec Ideal S256x256 .f32) (idx : S256x256.Idx) :
    distMat N T P idx = max (N idx - T idx * P idx) cZero := rfl

/-- The squared hinge of the distances, entry by entry. -/
def hingeMat (D : FVec Ideal S256x256 .f32) : FVec Ideal S256x256 .f32 :=
  mulf
    (maximumf (subf (broadcast S256x256 (Scalar.ofBits .f32 0x41200000#32))
        (Idealize.ShloMosaic.sqrt (addf D (broadcast S256x256 (Scalar.ofBits .f32 0x2B8CBCCC#32)))))
      (broadcast S256x256 (Scalar.ofBits .f32 0x00000000#32)))
    (maximumf (subf (broadcast S256x256 (Scalar.ofBits .f32 0x41200000#32))
        (Idealize.ShloMosaic.sqrt (addf D (broadcast S256x256 (Scalar.ofBits .f32 0x2B8CBCCC#32)))))
      (broadcast S256x256 (Scalar.ofBits .f32 0x00000000#32)))

theorem hingeMat_apply (D : FVec Ideal S256x256 .f32) (idx : S256x256.Idx) :
    hingeMat D idx
      = max (cMargin - Ideal.sqrt (D idx + cEps)) cZero * max (cMargin - Ideal.sqrt (D idx + cEps)) cZero := rfl

/-- A matrix kept strictly above the diagonal, zero elsewhere. -/
def upperMat (D : FVec Ideal S256x256 .f32) : FVec Ideal S256x256 .f32 :=
  select (cmpi .sgt (iota .tc S256x256 32 [1] iota_S256x256_d1_w32) (iota .tc S256x256 32 [0] iota_S256x256_d0_w32)) D
    (broadcast S256x256 (Scalar.ofBits .f32 0x00000000#32))

theorem upperMat_apply (D : FVec Ideal S256x256 .f32) (i j : Fin 256) :
    upperMat D (ix2 i j) = if i < j then D (ix2 i j) else cZero :=
  masked_apply D _ i j

/-- The sum of all entries of a matrix, taken lanes first, divided by the constant of bit pattern `c`. -/
def scaledSum (M : FVec Ideal S256x256 .f32) (c : BitVec 32) : FVec Ideal S1x1 .f32 :=
  divf
    (shapeCast S1x1 (multiReduction (F := Ideal) .add [0] S1
      (shapeCast S256x1 (multiReduction (F := Ideal) .add [1] S256 M 0x00000000#32 reduces_S256x256_S256 (.inl rfl) rfl) shapeCasts_S256_S256x1)
      0x00000000#32 reduces_S256x1_S1 (.inl rfl) rfl) shapeCasts_S1_S1x1)
    (broadcast S1x1 (Scalar.ofBits .f32 c))

theorem scaledSum_apply (M : FVec Ideal S256x256 .f32) (c : BitVec 32) (j : S1x1.Idx) :
    scaledSum M c j = Ideal.div (∑ i : Fin 256, ∑ k : Fin 256, M (ix2 i k)) (Ideal.ofBits .f32 c) := by
  unfold scaledSum
  refine (divf_apply _ _ j).trans ?_
  exact congrArg (Ideal.div · (Ideal.ofBits .f32 c)) (twoStageSum_apply M j)

/-- The matrix of norm sums from two columns of squared norms. -/
def normSumMat (p q : FVec Ideal S256x1 .f32) : FVec Ideal S256x256 .f32 :=
  addf (broadcastTo S256x256 p broadcasts_S256x1_S256x256)
    (broadcastTo S256x256 (transpose S1x256 [1, 0] q transposes_S256x1_p1_0_S1x256) broadcasts_S1x256_S256x256)

/-- The matrix of inner products of the rows of `x` with the rows of `y`. -/
def gramMat (x y : FVec Ideal S256x128 .f32) : FVec Ideal S256x256 .f32 :=
  matmul dot_S256x128_S128x256_S256x256_1_0_0_1_n_n none x
    (transpose S128x256 [1, 0] y transposes_S256x128_p1_0_S128x256) (constant (F := Ideal) S256x256 .f32 0x00000000#32)

/-- The splat of the constant two. -/
def twoMat : FVec Ideal S256x256 .f32 := broadcast S256x256 (Scalar.ofBits .f32 0x40000000#32)

/-! ## The separation and clustering terms from entrywise facts -/

/-- The scaled sum of the squared hinges is the separation of the entrywise distances. -/
theorem separation_of (D : FVec Ideal S256x256 .f32) (d : Fin 256 → Fin 256 → EReal)
    (hD : ∀ i k, D (ix2 i k) = d i k) (j : S1x1.Idx) :
    scaledSum (hingeMat D) 0x47800000#32 j = separationOf d := by
  refine (scaledSum_apply _ _ j).trans ?_
  unfold separationOf
  refine congrArg (Ideal.div · cPairs) ?_
  refine Finset.sum_congr rfl fun i _ => Finset.sum_congr rfl fun k _ => ?_
  refine (hingeMat_apply D (ix2 i k)).trans ?_
  unfold hingeOf
  rw [hD i k]

/-- The scaled sum of the strict upper triangle is the clustering of the entrywise distances. -/
theorem clustering_of (D : FVec Ideal S256x256 .f32) (d : Fin 256 → Fin 256 → EReal)
    (hD : ∀ i k, D (ix2 i k) = d i k) (j : S1x1.Idx) :
    scaledSum (upperMat D) 0x46FF0000#32 j = clusteringOf d := by
  refine (scaledSum_apply _ _ j).trans ?_
  unfold clusteringOf
  refine congrArg (Ideal.div · cUpper) ?_
  refine Finset.sum_congr rfl fun i _ => Finset.sum_congr rfl fun k _ => ?_
  refine (upperMat_apply D i k).trans ?_
  rw [hD i k]

/-- The clamped squared distances from entrywise facts about the three matrices. -/
theorem distMat_of (N T P : FVec Ideal S256x256 .f32) (a b : Cents)
    (hN : ∀ i k, N (ix2 i k) = sqNorm a i + sqNorm b k) (hT : ∀ i k, T (ix2 i k) = cTwo)
    (hP : ∀ i k, P (ix2 i k) = Contrastive.inner a b i k) (i k : Fin 256) :
    distMat N T P (ix2 i k) = sqDistOf a b (fun i k => cTwo * Contrastive.inner a b i k) i k := by
  refine (distMat_apply N T P (ix2 i k)).trans ?_
  unfold sqDistOf
  rw [hN i k, hT i k, hP i k]

/-! ## The payloads as compositions of the named matrices -/

/-- The separation payload: the scaled sum of the squared hinges of the clamped distances between the two matrices. -/
theorem pay5_eq (x0 x1 : Vec Ideal S256x128 .f32) :
    k2_pay5 x0 x1
      = scaledSum (hingeMat (distMat (normSumMat (k2_pay3 x0) (k2_pay4 x1)) twoMat (gramMat (k2_pay1 x0) (k2_pay2 x1)))) 0x47800000#32 := rfl

/-- The stored payload: three times the separation plus three tenths of each clustering term. -/
theorem pay9_eq (v3 : FVec Ideal S256x128 .f32) (v9 : FVec Ideal S256x1 .f32) (v34 : FVec Ideal S1x1 .f32)
    (v36 v40 v41 : FVec Ideal S256x256 .f32) :
    k2_pay9 v3 v9 v34 v36 v40 v41
      = addf
          (addf (mulf (broadcast S1x1 (Scalar.ofBits .f32 0x40400000#32)) v34)
            (mulf (broadcast S1x1 (Scalar.ofBits .f32 0x3E99999A#32)) (scaledSum (upperMat (distMat v40 v41 v36)) 0x46FF0000#32)))
          (mulf (broadcast S1x1 (Scalar.ofBits .f32 0x3E99999A#32))
            (scaledSum (upperMat (distMat (normSumMat v9 v9) twoMat (gramMat v3 v3))) 0x46FF0000#32)) := rfl

/-- The stored payload at its one entry, as arithmetic on the three terms. -/
theorem pay9_apply (v3 : FVec Ideal S256x128 .f32) (v9 : FVec Ideal S256x1 .f32) (v34 : FVec Ideal S1x1 .f32)
    (v36 v40 v41 : FVec Ideal S256x256 .f32) (j : S1x1.Idx) :
    k2_pay9 v3 v9 v34 v36 v40 v41 j
      = cAlpha * v34 j + cBeta * scaledSum (upperMat (distMat v40 v41 v36)) 0x46FF0000#32 j
        + cBeta * scaledSum (upperMat (distMat (normSumMat v9 v9) twoMat (gramMat v3 v3))) 0x46FF0000#32 j := by
  rw [pay9_eq]; rfl

/-! ## The entrywise facts of the named matrices -/

/-- The matrix of norm sums at `(i, k)`, from what the two columns hold. -/
theorem normSumMat_apply (p q : FVec Ideal S256x1 .f32) (a b : Cents)
    (hp : ∀ i u, p (ix2 i u) = sqNorm a i) (hq : ∀ i u, q (ix2 i u) = sqNorm b i) (i k : Fin 256) :
    normSumMat p q (ix2 i k) = sqNorm a i + sqNorm b k :=
  (normSum_apply p q i k).trans (congrArg₂ (· + ·) (hp i 0) (hq k 0))

/-- The matrix of inner products at `(i, k)`. -/
theorem gramMat_apply (x y : FVec Ideal S256x128 .f32) (i k : Fin 256) :
    gramMat x y (ix2 i k) = Contrastive.inner (x : Cents) (y : Cents) i k :=
  matmulT_apply x y i k

/-! ## The stored entry -/

/-- The one entry of the stored [1,1] block is the total loss of the two loaded centroid matrices. -/
theorem loss_payload (x0 x1 : Vec Ideal S256x128 .f32) (j : S1x1.Idx) :
    k2_pay9 (k2_pay2 x1) (k2_pay4 x1) (k2_pay5 x0 x1) (k2_pay6 x0) (k2_pay7 x0) (k2_pay8 (F := Ideal)) j
      = total (x0 : Cents) (x1 : Cents) := by
  refine (pay9_apply _ _ _ _ _ _ j).trans ?_
  unfold total totalOf
  refine congrArg₂ (· + ·) (congrArg₂ (· + ·) (congrArg (cAlpha * ·) ?_) (congrArg (cBeta * ·) ?_)) (congrArg (cBeta * ·) ?_)
  · rw [pay5_eq]
    refine separation_of _ _ (fun i k => ?_) j
    exact distMat_of _ _ _ x0 x1 (normSumMat_apply _ _ x0 x1 (pay3_apply x0) (pay4_apply x1)) (fun _ _ => rfl)
      (fun i k => by rw [pay1_eq, pay2_eq]; exact gramMat_apply x0 x1 i k) i k
  · refine clustering_of _ _ (fun i k => ?_) j
    exact distMat_of (k2_pay7 x0) (k2_pay8 (F := Ideal)) (k2_pay6 x0) x0 x0 (fun i k => pay7_apply x0 i k) (fun _ _ => rfl)
      (fun i k => pay6_apply x0 i k) i k
  · refine clustering_of _ _ (fun i k => ?_) j
    exact distMat_of _ _ _ x1 x1 (normSumMat_apply _ _ x1 x1 (pay4_apply x1) (pay4_apply x1)) (fun _ _ => rfl)
      (fun i k => by rw [pay2_eq]; exact gramMat_apply x1 x1 i k) i k

end Cert.KernelIdeal.LossValue

end
-- ==== Proof.CentroidValue.lean ====
/-
  The centroid regions' output arrays.

  Each of the first two regions walks its [256, 2048, 128] input in 16 blocks of 16 batches. At grid point t the body
  loads the block, sums it over the token axis, divides by 2048 and stores the [16, 128] result, which is written back
  as rows 16·t … 16·t+15 of the [256, 128] output. Row r of the output is therefore written by point r / 16, from rows
  of the input with the same batch index, so the output array is the centroid matrix of the input array as the region
  finds it — whatever that array is.
-/
import proofs.«128824_j79207786873536_1_alg».proof.Proof.Gen.KernelIdeal.Frame
import proofs.«128824_j79207786873536_1_alg».proof.Proof.Spec
import Idealize.ShloMosaic.Lib.Pipeline.Value
import Idealize.ShloMosaic.Lib.ValueIdx
import Idealize.ShloMosaic.PureOps.Ideal.Laws

noncomputable section

namespace Cert.KernelIdeal.CentroidValue

open Cert.KernelIdeal Cert.KernelIdeal.Gen Cert.Contrastive
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

/-- A block's token sum at (p, q), as the sum over the tokens of the block's entries (p, s, q). -/
theorem tokenSum_apply (x : FVec Ideal S16x2048x128 .f32) (h : S16x2048x128.Reduces [1] S16x128)
    (hacc : (0x00000000#32 : BitVec 32) = 0x00000000#32) (p : Fin 16) (q : Fin 128) :
    multiReduction .add [1] S16x128 x 0x00000000#32 h (.inl rfl) hacc (ix2 p q) = ∑ s : Fin 2048, x (ix3 p s q) := by
  refine (Ideal.multiReduction_add_single x 0x00000000#32 h (.inl rfl) hacc (ix2 p q)).trans ?_
  refine Finset.sum_congr rfl fun s _ => congrArg x (funext fun a => Fin.ext ?_)
  match a with
  | ⟨0, _⟩ => rfl
  | ⟨1, _⟩ => rfl
  | ⟨2, _⟩ => rfl

/-- What the first region's body stores at (p, q): the block's token mean. -/
theorem mean0_apply (x : Vec Ideal S16x2048x128 .f32) (p : Fin 16) (q : Fin 128) :
    k0_pay1 x (ix2 p q) = Ideal.div (∑ s : Fin 2048, x (ix3 p s q)) cTokens := by
  unfold k0_pay1
  exact congrArg (Ideal.div · cTokens) (tokenSum_apply x _ _ p q)

/-- What the second region's body stores at (p, q): the same. -/
theorem mean1_apply (x : Vec Ideal S16x2048x128 .f32) (p : Fin 16) (q : Fin 128) :
    k1_pay1 x (ix2 p q) = Ideal.div (∑ s : Fin 2048, x (ix3 p s q)) cTokens := by
  unfold k1_pay1
  exact congrArg (Ideal.div · cTokens) (tokenSum_apply x _ _ p q)

variable (V : (c : Dev nD) → (b : Ref sig .tc) → Buf (Elt Ideal) ((c : Thread nD τ).loc b))

/-! ## Region 0 -/

/-- The block indices over the grid: the input's batch block is the output's row block, every other block index zero. -/
theorem idx0 : ∀ t : Fin cfg0.N, win0_0.index t (0 : Fin 3) = win0_1.index t (0 : Fin 2)
    ∧ win0_0.index t (1 : Fin 3) = 0 ∧ win0_0.index t (2 : Fin 3) = 0 ∧ win0_1.index t (1 : Fin 2) = 0
    ∧ win0_1.index t (0 : Fin 2) ≤ 15 :=
  (by decide +kernel : ∀ t : Fin grid0.N, _)

/-- Every row block is some point's. -/
theorem onto0 : ∀ q0 : Fin 16, ∃ t : Fin cfg0.N, win0_1.index t = ![q0.val, 0] :=
  (by decide +kernel : ∀ q0 : Fin 16, ∃ t : Fin grid0.N, win0_1.index t = ![q0.val, 0])

/-- What point t writes back is block t of the centroid matrix of the input array. -/
theorem flushed0_eq (c : Dev nD) (t : Fin cfg0.N) :
    (dat0 V c).flushed 1 t = ((cfg0.win 1).blk t).view.read (Elt Ideal) (centroid (V c main_arg0)) := by
  show (cfg0.win 1).cut (grid0.coords t) ((dat0 V c).after 1 t) = _
  rw [after0_1]
  unfold out0_1
  rw [View.canon_unit_zero zeros2]
  simp only [View.ld_unit_zero (S := S16x2048x128) zeros3]
  obtain ⟨e0, e1, e2, e3, e4⟩ := idx0 t
  funext j
  obtain ⟨p, q, rfl⟩ : ∃ (p : Fin 16) (q : Fin 128), j = ix2 p q := ⟨j 0, j 1, eq_ix2 j⟩
  show k0_pay1 (iblk0 V c 0 t) (ix2 p q) = centroid (V c main_arg0) (((cfg0.win 1).blk t).view.emb (ix2 p q))
  refine (mean0_apply (iblk0 V c 0 t) p q).trans ?_
  unfold centroid
  refine congrArg (Ideal.div · cTokens) (Finset.sum_congr rfl fun s _ => ?_)
  show V c main_arg0 (((cfg0.win 0).blk t).view.emb (ix3 p s q)) = V c main_arg0 _
  refine congrArg (V c main_arg0) (funext fun a => Fin.ext ?_)
  match a with
  | ⟨0, _⟩ => show win0_0.index t (0 : Fin 3) * 16 + 1 * p.val = win0_1.index t (0 : Fin 2) * 16 + 1 * p.val; omega
  | ⟨1, _⟩ => show win0_0.index t (1 : Fin 3) * 2048 + 1 * s.val = s.val; omega
  | ⟨2, _⟩ => show win0_0.index t (2 : Fin 3) * 128 + 1 * q.val = win0_1.index t (1 : Fin 2) * 128 + 1 * q.val; omega

/-- An index of the output is in point t's block iff each coordinate is in the block's range on its axis. -/
theorem mem_blk0 (t : Fin cfg0.N) (i : S256x128.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v0).slice (win0_1.rect t)).set ↔ _
  rw [View.set_slice_whole, Rect.mem_set_unit]
  exact Iff.rfl

/-- Every index of the output is in some writing point's block. -/
theorem cover0 (i : S256x128.Idx) : ∃ t : Fin cfg0.N, (cfg0.win 1).flush t = true ∧ i ∈ ((cfg0.win 1).blk t).view.set := by
  have hi0 : (i 0).val < 256 := (i 0).isLt
  have hi1 : (i 1).val < 128 := (i 1).isLt
  obtain ⟨t, ht⟩ := onto0 ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

/-- After region 0 its output array is the centroid matrix of its input array as found. -/
theorem final0 (c : Dev nD) : (dat0 V c).arrAt 1 cfg0.N = centroid (V c main_arg0) :=
  (dat0 V c).arrAt_eq_of_cover 1 (centroid (V c main_arg0)) (fun t _ => flushed0_eq V c t) cover0

/-! ## Region 1 -/

/-- The block indices over the grid: the input's batch block is the output's row block, every other block index zero. -/
theorem idx1 : ∀ t : Fin cfg1.N, win1_0.index t (0 : Fin 3) = win1_1.index t (0 : Fin 2)
    ∧ win1_0.index t (1 : Fin 3) = 0 ∧ win1_0.index t (2 : Fin 3) = 0 ∧ win1_1.index t (1 : Fin 2) = 0
    ∧ win1_1.index t (0 : Fin 2) ≤ 15 :=
  (by decide +kernel : ∀ t : Fin grid1.N, _)

/-- Every row block is some point's. -/
theorem onto1 : ∀ q0 : Fin 16, ∃ t : Fin cfg1.N, win1_1.index t = ![q0.val, 0] :=
  (by decide +kernel : ∀ q0 : Fin 16, ∃ t : Fin grid1.N, win1_1.index t = ![q0.val, 0])

/-- What point t writes back is block t of the centroid matrix of the input array. -/
theorem flushed1_eq (c : Dev nD) (t : Fin cfg1.N) :
    (dat1 V c).flushed 1 t = ((cfg1.win 1).blk t).view.read (Elt Ideal) (centroid (V c main_arg1)) := by
  show (cfg1.win 1).cut (grid1.coords t) ((dat1 V c).after 1 t) = _
  rw [after1_1]
  unfold out1_1
  rw [View.canon_unit_zero zeros2]
  simp only [View.ld_unit_zero (S := S16x2048x128) zeros3]
  obtain ⟨e0, e1, e2, e3, e4⟩ := idx1 t
  funext j
  obtain ⟨p, q, rfl⟩ : ∃ (p : Fin 16) (q : Fin 128), j = ix2 p q := ⟨j 0, j 1, eq_ix2 j⟩
  show k1_pay1 (iblk1 V c 0 t) (ix2 p q) = centroid (V c main_arg1) (((cfg1.win 1).blk t).view.emb (ix2 p q))
  refine (mean1_apply (iblk1 V c 0 t) p q).trans ?_
  unfold centroid
  refine congrArg (Ideal.div · cTokens) (Finset.sum_congr rfl fun s _ => ?_)
  show V c main_arg1 (((cfg1.win 0).blk t).view.emb (ix3 p s q)) = V c main_arg1 _
  refine congrArg (V c main_arg1) (funext fun a => Fin.ext ?_)
  match a with
  | ⟨0, _⟩ => show win1_0.index t (0 : Fin 3) * 16 + 1 * p.val = win1_1.index t (0 : Fin 2) * 16 + 1 * p.val; omega
  | ⟨1, _⟩ => show win1_0.index t (1 : Fin 3) * 2048 + 1 * s.val = s.val; omega
  | ⟨2, _⟩ => show win1_0.index t (2 : Fin 3) * 128 + 1 * q.val = win1_1.index t (1 : Fin 2) * 128 + 1 * q.val; omega

/-- An index of the output is in point t's block iff each coordinate is in the block's range on its axis. -/
theorem mem_blk1 (t : Fin cfg1.N) (i : S256x128.Idx) :
    i ∈ ((cfg1.win 1).blk t).view.set ↔ ∀ a : Fin 2, win1_1.index t a * S16x128.size a ≤ (i a).val ∧ (i a).val < win1_1.index t a * S16x128.size a + S16x128.size a := by
  show i ∈ ((View.whole main_v1).slice (win1_1.rect t)).set ↔ _
  rw [View.set_slice_whole, Rect.mem_set_unit]
  exact Iff.rfl

/-- Every index of the output is in some writing point's block. -/
theorem cover1 (i : S256x128.Idx) : ∃ t : Fin cfg1.N, (cfg1.win 1).flush t = true ∧ i ∈ ((cfg1.win 1).blk t).view.set := by
  have hi0 : (i 0).val < 256 := (i 0).isLt
  have hi1 : (i 1).val < 128 := (i 1).isLt
  obtain ⟨t, ht⟩ := onto1 ⟨(i 0).val / 16, by omega⟩
  have q0 : win1_1.index t (0 : Fin 2) = (i 0).val / 16 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 16 ≤ (i 0).val ∧ (i 0).val < win1_1.index t (0 : Fin 2) * 16 + 16; omega
  | ⟨1, _⟩ => show win1_1.index t (1 : Fin 2) * 128 ≤ (i 1).val ∧ (i 1).val < win1_1.index t (1 : Fin 2) * 128 + 128; omega

/-- After region 1 its output array is the centroid matrix of its input array as found. -/
theorem final1 (c : Dev nD) : (dat1 V c).arrAt 1 cfg1.N = centroid (V c main_arg1) :=
  (dat1 V c).arrAt_eq_of_cover 1 (centroid (V c main_arg1)) (fun t _ => flushed1_eq V c t) cover1

end Cert.KernelIdeal.CentroidValue

end
-- ==== Proof.KernelValue.lean ====
/-
  The kernel program's result as a function of its two argument arrays.

  The program runs three regions and one reshape. Reading the buffer contents backwards from the result:
  the result (rank 0) is the reshape of the [1, 1] array the loss region writes; that array's one block is what the
  loss body stores, the total loss of the two [256, 128] arrays the region finds in its two input windows (each window
  is the whole array); the first of those was written by region 0 and is untouched by region 1, the second was written
  by region 1; each is the centroid matrix of that region's input, which is an argument array, untouched until then.
-/
import proofs.«128824_j79207786873536_1_alg».proof.Proof.Gen.KernelIdeal.Frame
import proofs.«128824_j79207786873536_1_alg».proof.Proof.Spec
import proofs.«128824_j79207786873536_1_alg».proof.Proof.CentroidValue
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Cert.Contrastive Cert.KernelIdeal.CentroidValue
open Idealize.ShloMosaic Idealize.ShloMosaic.TcCoe Idealize.SL.Sem Idealize.ShloMosaic.ValueIdx Idealize.ShloMosaic.StableHlo
open Idealize.ShloMosaic.Pipeline (Dat)

/-- What the loss body stores is the total loss of the two matrices it loads (proved with the payload, supplied at the assembly). -/
def LossPayload : Prop := ∀ (x0 x1 : Vec Ideal S256x128 .f32) (j : S1x1.Idx),
  k2_pay9 (k2_pay2 x1) (k2_pay4 x1) (k2_pay5 x0 x1) (k2_pay6 x0) (k2_pay7 x0) (k2_pay8 (F := Ideal)) j = total (x0 : Cents) (x1 : Cents)

section Region2

variable (V : (c : Dev nD) → (b : Ref sig .tc) → Buf (Elt Ideal) ((c : Thread nD τ).loc b))

/-- The loss region has one grid point and every window's one block is its whole array: all block indices are zero. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first input window's block is the whole first input array. -/
theorem blk2_0 (c : Dev nD) (t : Fin cfg2.N) : (iblk2 V c 0 t : Cents) = (V c main_v0 : Cents) := by
  obtain ⟨e0, e1, -, -, -, -⟩ := idx2 t
  funext y
  show V c main_v0 (((cfg2.win 0).blk t).view.emb y) = V c main_v0 y
  refine congrArg (V c main_v0) (funext fun a => Fin.ext ?_)
  match a with
  | ⟨0, _⟩ => show win2_0.index t (0 : Fin 2) * 256 + 1 * (y 0).val = (y 0).val; omega
  | ⟨1, _⟩ => show win2_0.index t (1 : Fin 2) * 128 + 1 * (y 1).val = (y 1).val; omega

/-- The second input window's block is the whole second input array. -/
theorem blk2_1 (c : Dev nD) (t : Fin cfg2.N) : (iblk2 V c 1 t : Cents) = (V c main_v1 : Cents) := by
  obtain ⟨-, -, e2, e3, -, -⟩ := idx2 t
  funext y
  show V c main_v1 (((cfg2.win 1).blk t).view.emb y) = V c main_v1 y
  refine congrArg (V c main_v1) (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- What the one point writes back is the block of the constant array at the total loss of the two input arrays. -/
theorem flushed2_eq (hpay : LossPayload) (c : Dev nD) (t : Fin cfg2.N) :
    (dat2 V c).flushed 2 t = ((cfg2.win 2).blk t).view.read (Elt Ideal) (fun _ => total (V c main_v0 : Cents) (V c main_v1 : Cents)) := by
  show (cfg2.win 2).cut (grid2.coords t) ((dat2 V c).after 2 t) = _
  rw [after2_2]
  unfold out2_2
  rw [View.canon_unit_zero zeros2]
  simp only [View.ld_unit_zero (S := S256x128) zeros2]
  funext j
  show k2_pay9 (k2_pay2 (iblk2 V c 1 t)) (k2_pay4 (iblk2 V c 1 t)) (k2_pay5 (iblk2 V c 0 t) (iblk2 V c 1 t)) (k2_pay6 (iblk2 V c 0 t)) (k2_pay7 (iblk2 V c 0 t)) (k2_pay8 (F := Ideal)) j = total (V c main_v0 : Cents) (V c main_v1 : Cents)
  refine (hpay (iblk2 V c 0 t) (iblk2 V c 1 t) j).trans ?_
  rw [blk2_0 V c t, blk2_1 V c t]

/-- An index of the [1, 1] output is in the point's block iff each coordinate is in the block's range. -/
theorem mem_blk2 (t : Fin cfg2.N) (i : S1x1.Idx) :
    i ∈ ((cfg2.win 2).blk t).view.set ↔ ∀ a : Fin 2, win2_2.index t a * S1x1.size a ≤ (i a).val ∧ (i a).val < win2_2.index t a * S1x1.size a + S1x1.size a := by
  show i ∈ ((View.whole main_v2).slice (win2_2.rect t)).set ↔ _
  rw [View.set_slice_whole, Rect.mem_set_unit]
  exact Iff.rfl

/-- The one block covers the one index. -/
theorem cover2 (i : S1x1.Idx) : ∃ t : Fin cfg2.N, (cfg2.win 2).flush t = true ∧ i ∈ ((cfg2.win 2).blk t).view.set := by
  have hi0 : (i 0).val < 1 := (i 0).isLt
  have hi1 : (i 1).val < 1 := (i 1).isLt
  obtain ⟨-, -, -, -, e4, e5⟩ := idx2 t2_0
  refine ⟨t2_0, flush2_2 t2_0, ?_⟩
  rw [mem_blk2]
  intro a
  match a with
  | ⟨0, _⟩ => show win2_2.index t2_0 (0 : Fin 2) * 1 ≤ (i 0).val ∧ (i 0).val < win2_2.index t2_0 (0 : Fin 2) * 1 + 1; omega
  | ⟨1, _⟩ => show win2_2.index t2_0 (1 : Fin 2) * 1 ≤ (i 1).val ∧ (i 1).val < win2_2.index t2_0 (1 : Fin 2) * 1 + 1; omega

/-- After the loss region its output array holds the total loss of its two input arrays as found. -/
theorem final2 (hpay : LossPayload) (c : Dev nD) :
    (dat2 V c).arrAt 2 cfg2.N = fun _ => total (V c main_v0 : Cents) (V c main_v1 : Cents) :=
  (dat2 V c).arrAt_eq_of_cover 2 (fun _ => total (V c main_v0 : Cents) (V c main_v1 : Cents)) (fun t _ => flushed2_eq V hpay c t) cover2

end Region2

/-! ## The run's boundaries, read backwards -/

variable (m : (ℓ : Loc nD τ sig) → Buf (Elt Ideal) ℓ) (ρ : Dev nD → PrngReg)

/-- Region 2's first input, at its entry, is the centroid matrix of the first argument. -/
theorem entry2_v0 (c : Dev nD) : (V2 m ρ c main_v0 : Cents) = centroid (m ((c.tc : Thread nD τ).loc main_arg0)) :=
  calc (V2 m ρ c main_v0 : Cents)
    _ = W1 m ρ c (Proc.devRef .tc main_v0) := W2_of_ne m ρ c main_v0 (by decide)
    _ = (dat0 (V0 m ρ) c).arrAt 1 cfg0.N := W1_arr m ρ c 1
    _ = centroid (V0 m ρ c main_arg0) := final0 (V0 m ρ) c
    _ = centroid (m ((c.tc : Thread nD τ).loc main_arg0)) := rfl

/-- Region 1's input, at its entry, is the second argument. -/
theorem entry1_arg1 (c : Dev nD) : (V1 m ρ c main_arg1 : Tokens) = m ((c.tc : Thread nD τ).loc main_arg1) :=
  calc (V1 m ρ c main_arg1 : Tokens)
    _ = W0 m ρ c (Proc.devRef .tc main_arg1) := W1_of_ne m ρ c main_arg1 (by decide)
    _ = m ((c.tc : Thread nD τ).loc main_arg1) := rfl

/-- Region 2's second input, at its entry, is the centroid matrix of the second argument. -/
theorem entry2_v1 (c : Dev nD) : (V2 m ρ c main_v1 : Cents) = centroid (m ((c.tc : Thread nD τ).loc main_arg1)) :=
  calc (V2 m ρ c main_v1 : Cents)
    _ = (dat1 (V1 m ρ) c).arrAt 1 cfg1.N := W2_arr m ρ c 1
    _ = centroid (V1 m ρ c main_arg1) := final1 (V1 m ρ) c
    _ = centroid (m ((c.tc : Thread nD τ).loc main_arg1)) := congrArg centroid (entry1_arg1 m ρ c)

/-- The result array after the last host operation: the total loss of the two arguments' centroid matrices. -/
theorem result (hpay : LossPayload) (c : Dev nD) :
    W4 m ρ c (Proc.devRef .tc main_v3)
      = fun _ => total (centroid (m ((c.tc : Thread nD τ).loc main_arg0))) (centroid (m ((c.tc : Thread nD τ).loc main_arg1))) := by
  have h3 : W3 m ρ c (Proc.devRef .tc main_v2) = fun _ => total (V2 m ρ c main_v0 : Cents) (V2 m ρ c main_v1 : Cents) :=
    (W3_arr m ρ c 2).trans (final2 (V2 m ρ) hpay c)
  have h4 : W4 m ρ c (Proc.devRef .tc main_v3) = fun i => shapeCast S_ (W3 m ρ c (Proc.devRef .tc main_v2)) shapeCasts_S1x1_S_ i := by
    show StableHlo.after hostOps3 (W3 m ρ c) (Proc.devRef .tc main_v3) = _
    after_results
    rfl
  rw [h4, h3, entry2_v0 m ρ c, entry2_v1 m ρ c]
  funext i
  unfold shapeCast
  rfl

end Cert.KernelIdeal.KernelValue

end
-- ==== Proof.RefValue.lean ====
/-
  The reference's result, read back from its run, is the total loss (with the inner product's left factor scaled
  entry by entry) of the two centroid matrices.
-/
import proofs.«128824_j79207786873536_1_alg».proof.Proof.Gen.ReferenceIdeal.Run
import proofs.«128824_j79207786873536_1_alg».proof.Proof.Gen.ReferenceIdeal.Read
import proofs.«128824_j79207786873536_1_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Cert.ReferenceIdeal Cert.ReferenceIdeal.Gen Cert.Contrastive Idealize.ShloMosaic Idealize.ShloMosaic.TcCoe Idealize.SL.Sem
open Idealize.ShloMosaic.ValueIdx

/-! ## The centroids -/

/-- The first argument's mean over the token axis. -/
theorem cent_arg0 (x0 : (⟨S256x2048x128, .f32⟩ : BufTy).Contents (Elt Ideal)) : Read.val_main_v2 (F := Ideal) x0 = centroid x0 := by
  funext i
  rw [Read.val_main_v2_apply, Read.val_main_v0_apply, Read.val_main_v1_apply, Read.val_main_cst_0_apply,
    Read.val_main_cst_apply]
  simp only [Ideal.hostDivf_def, Ideal.ofBits_def, Ideal.ofBits_zero_f32, zero_add]
  unfold centroid
  refine congrArg (fun s => Ideal.div s cTokens) (Finset.sum_congr rfl fun k _ => congrArg x0 ?_)
  exact funext fun a => Fin.ext (by match a with | ⟨0, _⟩ => rfl | ⟨1, _⟩ => rfl | ⟨2, _⟩ => rfl)

/-- The second argument's mean over the token axis. -/
theorem cent_arg1 (x1 : (⟨S256x2048x128, .f32⟩ : BufTy).Contents (Elt Ideal)) : Read.val_main_v5 (F := Ideal) x1 = centroid x1 := by
  funext i
  rw [Read.val_main_v5_apply, Read.val_main_v3_apply, Read.val_main_v4_apply, Read.val_main_cst_2_apply,
    Read.val_main_cst_1_apply]
  simp only [Ideal.hostDivf_def, Ideal.ofBits_def, Ideal.ofBits_zero_f32, zero_add]
  unfold centroid
  refine congrArg (fun s => Ideal.div s cTokens) (Finset.sum_congr rfl fun k _ => congrArg x1 ?_)
  exact funext fun a => Fin.ext (by match a with | ⟨0, _⟩ => rfl | ⟨1, _⟩ => rfl | ⟨2, _⟩ => rfl)

/-! ## The strict upper triangle's mask -/

/-- On row and column numbers below 256 the signed word test "row ≥ column" is the test on the numbers. -/
theorem triu_word (i j : Fin 256) :
    IntOp.cmpi .sge (IntOp.addi (BitVec.ofNat 32 i.val) 0#32) (BitVec.ofNat 32 j.val) = if i < j then 0#1 else 1#1 := by
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have h0 : IntOp.addi (BitVec.ofNat 32 i.val) 0#32 = BitVec.ofNat 32 i.val := by
    unfold IntOp.addi; exact BitVec.add_zero _
  rw [h0]
  have key := StableHlo.Predicate.sge_iff_toNat (a := BitVec.ofNat 32 i.val) (b := BitVec.ofNat 32 j.val)
    (by rw [hi]; have := i.isLt; omega) (by rw [hj]; have := j.isLt; omega)
  rw [hi, hj] at key
  by_cases h : i < j
  · rw [if_pos h]
    exact eq_zero_of_ne_one fun h1 => absurd (key.mp h1) (by have := Fin.lt_def.mp h; omega)
  · rw [if_neg h]
    exact key.mpr (by have := Fin.not_lt.mp h; exact Fin.le_def.mp this)

/-- The mask keeps the entries strictly above the diagonal and puts the other operand elsewhere. -/
theorem triu_select (i j : Fin 256) (z d : EReal) :
    Scalar.select (IntOp.cmpi .sge (IntOp.addi (BitVec.ofNat 32 i.val) 0#32) (BitVec.ofNat 32 j.val)) z d
      = if i < j then d else z := by
  rw [triu_word]
  by_cases h : i < j
  · rw [if_pos h, if_pos h]; exact select_zero z d
  · rw [if_neg h, if_neg h]; exact select_one z d

/-! ## The squared distances between the two centroid matrices -/

/-- The broadcast row norms. -/
theorem rowNorm_ab (x0 : (⟨S256x2048x128, .f32⟩ : BufTy).Contents (Elt Ideal)) (i j : Fin 256) :
    Read.val_main_v12 (F := Ideal) x0 (ix2 i j) = sqNorm (Read.val_main_v2 (F := Ideal) x0) i := by
  rw [Read.val_main_v12_apply, Read.val_main_v8_apply, Read.val_main_v7_apply, Read.val_main_cst_3_apply]
  simp only [Ideal.ofBits_def, Ideal.ofBits_zero_f32, zero_add]
  unfold sqNorm
  refine Finset.sum_congr rfl fun k _ => ?_
  rw [Read.val_main_v6_apply, Ideal.mulf_def]
  have e : Read.idx_main_v7 (Read.idx_main_v8 (Read.idx_main_v12 (ix2 i j))) k = ix2 i k :=
    funext fun a => Fin.ext (by match a with | ⟨0, _⟩ => rfl | ⟨1, _⟩ => rfl)
  rw [e]

/-- The broadcast column norms. -/
theorem colNorm_ab (x1 : (⟨S256x2048x128, .f32⟩ : BufTy).Contents (Elt Ideal)) (i j : Fin 256) :
    Read.val_main_v13 (F := Ideal) x1 (ix2 i j) = sqNorm (Read.val_main_v5 (F := Ideal) x1) j := by
  rw [Read.val_main_v13_apply, Read.val_main_v11_apply, Read.val_main_v10_apply, Read.val_main_cst_4_apply]
  simp only [Ideal.ofBits_def, Ideal.ofBits_zero_f32, zero_add]
  unfold sqNorm
  refine Finset.sum_congr rfl fun k _ => ?_
  rw [Read.val_main_v9_apply, Ideal.mulf_def]
  have e : Read.idx_main_v10 (Read.idx_main_v11 (Read.idx_main_v13 (ix2 i j))) k = ix2 j k :=
    funext fun a => Fin.ext (by match a with | ⟨0, _⟩ => rfl | ⟨1, _⟩ => rfl)
  rw [e]

/-- The contraction of the doubled left factor with the transposed right factor. -/
theorem dot_ab (x0 x1 : (⟨S256x2048x128, .f32⟩ : BufTy).Contents (Elt Ideal)) (i j : Fin 256) :
    Read.val_main_v18 (F := Ideal) x0 x1 (ix2 i j) = innerScaled (Read.val_main_v2 (F := Ideal) x0) (Read.val_main_v5 (F := Ideal) x1) i j := by
  rw [Read.val_main_v18_apply]
  unfold innerScaled
  refine Finset.sum_congr rfl fun k _ => ?_
  rw [Read.val_main_v16_apply, Read.val_main_v15_apply, Read.val_main_cst_5_apply, Read.val_main_v17_apply]
  have el : Read.lidx_main_v18 (ix2 i j) k = ix2 i k :=
    funext fun a => Fin.ext (by match a with | ⟨0, _⟩ => rfl | ⟨1, _⟩ => rfl)
  have er : Read.idx_main_v17 (Read.ridx_main_v18 (ix2 i j) k) = ix2 j k :=
    funext fun a => Fin.ext (by match a with | ⟨0, _⟩ => rfl | ⟨1, _⟩ => rfl)
  rw [el, er]
  simp only [Ideal.mulf_def, Ideal.ofBits_def]

/-- The clamped squared distance. -/
theorem sqDist_ab (x0 x1 : (⟨S256x2048x128, .f32⟩ : BufTy).Contents (Elt Ideal)) (i j : Fin 256) :
    Read.val_main_v21 (F := Ideal) x0 x1 (ix2 i j) = sqDistOf (Read.val_main_v2 (F := Ideal) x0) (Read.val_main_v5 (F := Ideal) x1) (innerScaled (Read.val_main_v2 (F := Ideal) x0) (Read.val_main_v5 (F := Ideal) x1)) i j := by
  rw [Read.val_main_v21_apply, Read.val_main_v19_apply, Read.val_main_v14_apply, Read.val_main_v20_apply, Read.val_main_cst_6_apply,
    rowNorm_ab, colNorm_ab, dot_ab]
  unfold sqDistOf
  simp only [Ideal.maximumf_def, Ideal.subf_def, Ideal.addf_def, Ideal.ofBits_def]

/-! ## The squared distances within the first centroid matrix -/

/-- The broadcast row norms. -/
theorem rowNorm_aa (x0 : (⟨S256x2048x128, .f32⟩ : BufTy).Contents (Elt Ideal)) (i j : Fin 256) :
    Read.val_main_v38 (F := Ideal) x0 (ix2 i j) = sqNorm (Read.val_main_v2 (F := Ideal) x0) i := by
  rw [Read.val_main_v38_apply, Read.val_main_v34_apply, Read.val_main_v33_apply, Read.val_main_cst_12_apply]
  simp only [Ideal.ofBits_def, Ideal.ofBits_zero_f32, zero_add]
  unfold sqNorm
  refine Finset.sum_congr rfl fun k _ => ?_
  rw [Read.val_main_v32_apply, Ideal.mulf_def]
  have e : Read.idx_main_v33 (Read.idx_main_v34 (Read.idx_main_v38 (ix2 i j))) k = ix2 i k :=
    funext fun a => Fin.ext (by match a with | ⟨0, _⟩ => rfl | ⟨1, _⟩ => rfl)
  rw [e]

/-- The broadcast column norms. -/
theorem colNorm_aa (x0 : (⟨S256x2048x128, .f32⟩ : BufTy).Contents (Elt Ideal)) (i j : Fin 256) :
    Read.val_main_v39 (F := Ideal) x0 (ix2 i j) = sqNorm (Read.val_main_v2 (F := Ideal) x0) j := by
  rw [Read.val_main_v39_apply, Read.val_main_v37_apply, Read.val_main_v36_apply, Read.val_main_cst_13_apply]
  simp only [Ideal.ofBits_def, Ideal.ofBits_zero_f32, zero_add]
  unfold sqNorm
  refine Finset.sum_congr rfl fun k _ => ?_
  rw [Read.val_main_v35_apply, Ideal.mulf_def]
  have e : Read.idx_main_v36 (Read.idx_main_v37 (Read.idx_main_v39 (ix2 i j))) k = ix2 j k :=
    funext fun a => Fin.ext (by match a with | ⟨0, _⟩ => rfl | ⟨1, _⟩ => rfl)
  rw [e]

/-- The contraction of the doubled left factor with the transposed right factor. -/
theorem dot_aa (x0 : (⟨S256x2048x128, .f32⟩ : BufTy).Contents (Elt Ideal)) (i j : Fin 256) :
    Read.val_main_v44 (F := Ideal) x0 (ix2 i j) = innerScaled (Read.val_main_v2 (F := Ideal) x0) (Read.val_main_v2 (F := Ideal) x0) i j := by
  rw [Read.val_main_v44_apply]
  unfold innerScaled
  refine Finset.sum_congr rfl fun k _ => ?_
  rw [Read.val_main_v42_apply, Read.val_main_v41_apply, Read.val_main_cst_14_apply, Read.val_main_v43_apply]
  have el : Read.lidx_main_v44 (ix2 i j) k = ix2 i k :=
    funext fun a => Fin.ext (by match a with | ⟨0, _⟩ => rfl | ⟨1, _⟩ => rfl)
  have er : Read.idx_main_v43 (Read.ridx_main_v44 (ix2 i j) k) = ix2 j k :=
    funext fun a => Fin.ext (by match a with | ⟨0, _⟩ => rfl | ⟨1, _⟩ => rfl)
  rw [el, er]
  simp only [Ideal.mulf_def, Ideal.ofBits_def]

/-- The clamped squared distance. -/
theorem sqDist_aa (x0 : (⟨S256x2048x128, .f32⟩ : BufTy).Contents (Elt Ideal)) (i j : Fin 256) :
    Read.val_main_v47 (F := Ideal) x0 (ix2 i j) = sqDistOf (Read.val_main_v2 (F := Ideal) x0) (Read.val_main_v2 (F := Ideal) x0) (innerScaled (Read.val_main_v2 (F := Ideal) x0) (Read.val_main_v2 (F := Ideal) x0)) i j := by
  rw [Read.val_main_v47_apply, Read.val_main_v45_apply, Read.val_main_v40_apply, Read.val_main_v46_apply, Read.val_main_cst_15_apply,
    rowNorm_aa, colNorm_aa, dot_aa]
  unfold sqDistOf
  simp only [Ideal.maximumf_def, Ideal.subf_def, Ideal.addf_def, Ideal.ofBits_def]

/-! ## The squared distances within the second centroid matrix -/

/-- The broadcast row norms. -/
theorem rowNorm_bb (x1 : (⟨S256x2048x128, .f32⟩ : BufTy).Contents (Elt Ideal)) (i j : Fin 256) :
    Read.val_main_v57 (F := Ideal) x1 (ix2 i j) = sqNorm (Read.val_main_v5 (F := Ideal) x1) i := by
  rw [Read.val_main_v57_apply, Read.val_main_v53_apply, Read.val_main_v52_apply, Read.val_main_cst_18_apply]
  simp only [Ideal.ofBits_def, Ideal.ofBits_zero_f32, zero_add]
  unfold sqNorm
  refine Finset.sum_congr rfl fun k _ => ?_
  rw [Read.val_main_v51_apply, Ideal.mulf_def]
  have e : Read.idx_main_v52 (Read.idx_main_v53 (Read.idx_main_v57 (ix2 i j))) k = ix2 i k :=
    funext fun a => Fin.ext (by match a with | ⟨0, _⟩ => rfl | ⟨1, _⟩ => rfl)
  rw [e]

/-- The broadcast column norms. -/
theorem colNorm_bb (x1 : (⟨S256x2048x128, .f32⟩ : BufTy).Contents (Elt Ideal)) (i j : Fin 256) :
    Read.val_main_v58 (F := Ideal) x1 (ix2 i j) = sqNorm (Read.val_main_v5 (F := Ideal) x1) j := by
  rw [Read.val_main_v58_apply, Read.val_main_v56_apply, Read.val_main_v55_apply, Read.val_main_cst_19_apply]
  simp only [Ideal.ofBits_def, Ideal.ofBits_zero_f32, zero_add]
  unfold sqNorm
  refine Finset.sum_congr rfl fun k _ => ?_
  rw [Read.val_main_v54_apply, Ideal.mulf_def]
  have e : Read.idx_main_v55 (Read.idx_main_v56 (Read.idx_main_v58 (ix2 i j))) k = ix2 j k :=
    funext fun a => Fin.ext (by match a with | ⟨0, _⟩ => rfl | ⟨1, _⟩ => rfl)
  rw [e]

/-- The contraction of the doubled left factor with the transposed right factor. -/
theorem dot_bb (x1 : (⟨S256x2048x128, .f32⟩ : BufTy).Contents (Elt Ideal)) (i j : Fin 256) :
    Read.val_main_v63 (F := Ideal) x1 (ix2 i j) = innerScaled (Read.val_main_v5 (F := Ideal) x1) (Read.val_main_v5 (F := Ideal) x1) i j := by
  rw [Read.val_main_v63_apply]
  unfold innerScaled
  refine Finset.sum_congr rfl fun k _ => ?_
  rw [Read.val_main_v61_apply, Read.val_main_v60_apply, Read.val_main_cst_20_apply, Read.val_main_v62_apply]
  have el : Read.lidx_main_v63 (ix2 i j) k = ix2 i k :=
    funext fun a => Fin.ext (by match a with | ⟨0, _⟩ => rfl | ⟨1, _⟩ => rfl)
  have er : Read.idx_main_v62 (Read.ridx_main_v63 (ix2 i j) k) = ix2 j k :=
    funext fun a => Fin.ext (by match a with | ⟨0, _⟩ => rfl | ⟨1, _⟩ => rfl)
  rw [el, er]
  simp only [Ideal.mulf_def, Ideal.ofBits_def]

/-- The clamped squared distance. -/
theorem sqDist_bb (x1 : (⟨S256x2048x128, .f32⟩ : BufTy).Contents (Elt Ideal)) (i j : Fin 256) :
    Read.val_main_v66 (F := Ideal) x1 (ix2 i j) = sqDistOf (Read.val_main_v5 (F := Ideal) x1) (Read.val_main_v5 (F := Ideal) x1) (innerScaled (Read.val_main_v5 (F := Ideal) x1) (Read.val_main_v5 (F := Ideal) x1)) i j := by
  rw [Read.val_main_v66_apply, Read.val_main_v64_apply, Read.val_main_v59_apply, Read.val_main_v65_apply, Read.val_main_cst_21_apply,
    rowNorm_bb, colNorm_bb, dot_bb]
  unfold sqDistOf
  simp only [Ideal.maximumf_def, Ideal.subf_def, Ideal.addf_def, Ideal.ofBits_def]

/-! ## The masked matrices -/

/-- The strict upper triangle of the squared distances within the first centroid matrix. -/
theorem masked_aa (x0 : (⟨S256x2048x128, .f32⟩ : BufTy).Contents (Elt Ideal)) (i j : Fin 256) :
    Read.val_main_v48 (F := Ideal) x0 (ix2 i j)
      = if i < j then Read.val_main_v47 (F := Ideal) x0 (ix2 i j) else cZero := by
  rw [Read.val_main_v48_apply, Read.val_main_call0_v4_apply, Read.val_main_call0_v2_apply, Read.val_main_call0_v0_apply,
    Read.val_main_call0_v1_apply, Read.val_main_call0_c_apply, Read.val_main_call0_v3_apply, Read.val_main_call0_v5_apply,
    Read.val_main_call0_cst_apply]
  exact triu_select i j _ _

/-- The strict upper triangle of the squared distances within the second centroid matrix. -/
theorem masked_bb (x1 : (⟨S256x2048x128, .f32⟩ : BufTy).Contents (Elt Ideal)) (i j : Fin 256) :
    Read.val_main_v67 (F := Ideal) x1 (ix2 i j)
      = if i < j then Read.val_main_v66 (F := Ideal) x1 (ix2 i j) else cZero := by
  rw [Read.val_main_v67_apply, Read.val_main_call1_v4_apply, Read.val_main_call1_v2_apply, Read.val_main_call1_v0_apply,
    Read.val_main_call1_v1_apply, Read.val_main_call1_c_apply, Read.val_main_call1_v3_apply, Read.val_main_call1_v5_apply,
    Read.val_main_call1_cst_apply]
  exact triu_select i j _ _

/-! ## The three scalars and their weighted sum -/

/-- The squared hinge of one pair. -/
theorem hinge_ab (x0 x1 : (⟨S256x2048x128, .f32⟩ : BufTy).Contents (Elt Ideal)) (i j : Fin 256) :
    Read.val_main_v29 (F := Ideal) x0 x1 (ix2 i j)
      = hingeOf (fun p q => Read.val_main_v21 (F := Ideal) x0 x1 (ix2 p q)) i j := by
  rw [Read.val_main_v29_apply, Read.val_main_v28_apply, Read.val_main_v26_apply, Read.val_main_v25_apply, Read.val_main_cst_8_apply,
    Read.val_main_v24_apply, Read.val_main_v23_apply, Read.val_main_v22_apply, Read.val_main_cst_7_apply, Read.val_main_v27_apply,
    Read.val_main_cst_9_apply]
  unfold hingeOf
  simp only [Ideal.mulf_def, Ideal.maximumf_def, Ideal.subf_def, Ideal.addf_def, Ideal.hostUnary_sqrt_def, Ideal.ofBits_def]

/-- The mean squared hinge over all pairs. -/
theorem sep_ab (x0 x1 : (⟨S256x2048x128, .f32⟩ : BufTy).Contents (Elt Ideal)) (i : S_.Idx) :
    Read.val_main_v31 (F := Ideal) x0 x1 i
      = separationOf (fun p q => Read.val_main_v21 (F := Ideal) x0 x1 (ix2 p q)) := by
  rw [Read.val_main_v31_apply, Read.val_main_v30_apply, Read.val_main_cst_10_apply, Read.val_main_cst_11_apply, sum_idx2]
  simp only [Ideal.hostDivf_def, Ideal.ofBits_def, Ideal.ofBits_zero_f32, zero_add]
  unfold separationOf
  exact congrArg (fun s => Ideal.div s cPairs)
    (Finset.sum_congr rfl fun a _ => Finset.sum_congr rfl fun b _ => hinge_ab x0 x1 a b)

/-- The mean of the strict upper triangle. -/
theorem clus_aa (x0 : (⟨S256x2048x128, .f32⟩ : BufTy).Contents (Elt Ideal)) (i : S_.Idx) :
    Read.val_main_v50 (F := Ideal) x0 i
      = clusteringOf (fun p q => Read.val_main_v47 (F := Ideal) x0 (ix2 p q)) := by
  rw [Read.val_main_v50_apply, Read.val_main_v49_apply, Read.val_main_cst_16_apply, Read.val_main_cst_17_apply, sum_idx2]
  simp only [Ideal.hostDivf_def, Ideal.ofBits_def, Ideal.ofBits_zero_f32, zero_add]
  unfold clusteringOf
  exact congrArg (fun s => Ideal.div s cUpper)
    (Finset.sum_congr rfl fun a _ => Finset.sum_congr rfl fun b _ => masked_aa x0 a b)

/-- The mean of the strict upper triangle. -/
theorem clus_bb (x1 : (⟨S256x2048x128, .f32⟩ : BufTy).Contents (Elt Ideal)) (i : S_.Idx) :
    Read.val_main_v69 (F := Ideal) x1 i
      = clusteringOf (fun p q => Read.val_main_v66 (F := Ideal) x1 (ix2 p q)) := by
  rw [Read.val_main_v69_apply, Read.val_main_v68_apply, Read.val_main_cst_22_apply, Read.val_main_cst_23_apply, sum_idx2]
  simp only [Ideal.hostDivf_def, Ideal.ofBits_def, Ideal.ofBits_zero_f32, zero_add]
  unfold clusteringOf
  exact congrArg (fun s => Ideal.div s cUpper)
    (Finset.sum_congr rfl fun a _ => Finset.sum_congr rfl fun b _ => masked_bb x1 a b)

/-- The last stage is the loss of the two centroid matrices. -/
theorem total_val (x0 x1 : (⟨S256x2048x128, .f32⟩ : BufTy).Contents (Elt Ideal)) (i : S_.Idx) :
    Read.val_main_v74 (F := Ideal) x0 x1 i = totalScaled (centroid x0) (centroid x1) := by
  rw [Read.val_main_v74_apply, Read.val_main_v72_apply, Read.val_main_v73_apply, Read.val_main_v70_apply, Read.val_main_v71_apply,
    Read.val_main_cst_24_apply, Read.val_main_cst_25_apply, Read.val_main_cst_26_apply, sep_ab, clus_aa, clus_bb]
  have hab : (fun p q => Read.val_main_v21 (F := Ideal) x0 x1 (ix2 p q)) = sqDistOf (Read.val_main_v2 (F := Ideal) x0) (Read.val_main_v5 (F := Ideal) x1) (innerScaled (Read.val_main_v2 (F := Ideal) x0) (Read.val_main_v5 (F := Ideal) x1)) :=
    funext fun p => funext fun q => sqDist_ab x0 x1 p q
  have haa : (fun p q => Read.val_main_v47 (F := Ideal) x0 (ix2 p q)) = sqDistOf (Read.val_main_v2 (F := Ideal) x0) (Read.val_main_v2 (F := Ideal) x0) (innerScaled (Read.val_main_v2 (F := Ideal) x0) (Read.val_main_v2 (F := Ideal) x0)) :=
    funext fun p => funext fun q => sqDist_aa x0 p q
  have hbb : (fun p q => Read.val_main_v66 (F := Ideal) x1 (ix2 p q)) = sqDistOf (Read.val_main_v5 (F := Ideal) x1) (Read.val_main_v5 (F := Ideal) x1) (innerScaled (Read.val_main_v5 (F := Ideal) x1) (Read.val_main_v5 (F := Ideal) x1)) :=
    funext fun p => funext fun q => sqDist_bb x1 p q
  rw [hab, haa, hbb, cent_arg0, cent_arg1]
  unfold totalScaled totalOf
  simp only [Ideal.mulf_def, Ideal.addf_def, Ideal.ofBits_def]

/-- The run's result term is the loss of the centroids of the two argument arrays. -/
theorem result_eq (m : (ℓ : Loc nD τ sig) → Buf (Elt Ideal) ℓ) (c : Dev nD) :
    Cert.ReferenceIdeal.Value.res_out0 (F := Ideal) m c
      = fun _ => totalScaled (centroid (m ((c.tc : Thread nD τ).loc main_arg0))) (centroid (m ((c.tc : Thread nD τ).loc main_arg1))) := by
  refine (Read.val_main_v74_eq m c).trans ?_
  exact funext fun i => total_val _ _ i

end Cert.ReferenceIdeal.RefValue

end
-- ==== Proof.lean ====
/-
  The contrastive loss of two token arrays: a three-region kernel program against its plain reference, equal over the
  extended reals on finite inputs.

  Both programs compute, from two [256, 2048, 128] arrays, the centroid matrices (the mean over the 2048 tokens) and then
  the loss  3·separation + 0.3·clustering(a) + 0.3·clustering(b)  of the two [256, 128] centroid matrices a, b
  (Proof/Spec.lean states it). The kernel program takes each centroid matrix in a region of 16 grid points and the loss
  in a region of one point; the reference is straight-line. They differ in three ways, none of which changes the value:
  the kernel sums the 256 × 256 pair terms row by row and then over the rows where the reference sums them all at once
  (addition of extended reals is commutative and associative); the kernel masks the strict upper triangle by "column
  above row" where the reference zeroes "row at or above column"; and the kernel doubles the inner product where the
  reference doubles its left factor entry by entry. The last two agree only when the centroids are real numbers —
  multiplication by 2 distributes over a finite sum of reals, not over sums that meet +∞ and -∞ — which is what the
  precondition (every input entry finite) gives: a mean of finitely many reals is real.

  The three frames: the two kernel programs' are the generated frame certificates; the reference's is its generated run
  with the result dropped. The idealization rewrote no operation, so the kernel's idealized program is its own text
  read over the extended reals and there is nothing to preserve.
-/
import proofs.«128824_j79207786873536_1_alg».proof.Defs
import proofs.«128824_j79207786873536_1_alg».proof.Proof.Gen.Kernel
import proofs.«128824_j79207786873536_1_alg».proof.Proof.Gen.Kernel.Frame
import proofs.«128824_j79207786873536_1_alg».proof.Proof.Gen.KernelIdeal
import proofs.«128824_j79207786873536_1_alg».proof.Proof.Gen.KernelIdeal.Frame
import proofs.«128824_j79207786873536_1_alg».proof.Proof.Gen.ReferenceIdeal
import proofs.«128824_j79207786873536_1_alg».proof.Proof.Gen.Pre_finite_inputs
import proofs.«128824_j79207786873536_1_alg».proof.Proof.Gen.ReferenceIdeal.Run
import proofs.«128824_j79207786873536_1_alg».proof.Proof.Gen.ReferenceIdeal.Read
import proofs.«128824_j79207786873536_1_alg».proof.Proof.Spec
import proofs.«128824_j79207786873536_1_alg».proof.Proof.Finite
import proofs.«128824_j79207786873536_1_alg».proof.Proof.LossPayload
import proofs.«128824_j79207786873536_1_alg».proof.Proof.KernelRun
import proofs.«128824_j79207786873536_1_alg».proof.Proof.KernelValue
import proofs.«128824_j79207786873536_1_alg».proof.Proof.RefValue

noncomputable section

namespace Cert.Proof

open Idealize.ShloMosaic Idealize.ShloMosaic.TcCoe Idealize.SL.Sem Cert.Contrastive

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the total loss of the centroid matrices of the kernel program's two argument arrays: the
    kernel program by reading its run's buffers back to the arguments, the reference by its run's term, whose scaled
    inner products are the doubled ones because the centroids of finite arrays are real-valued. -/
theorem algebraic : Cert.algebraic_KernelIdeal_ReferenceIdeal := by
  intro m ρ m' ρ' hpre hagree
  have hreal : ∀ c : Dev Cert.KernelIdeal.nD,
      IsReal (m ((c.tc : Thread Cert.KernelIdeal.nD Cert.KernelIdeal.τ).loc Cert.KernelIdeal.main_arg0) : Tokens)
      ∧ IsReal (m ((c.tc : Thread Cert.KernelIdeal.nD Cert.KernelIdeal.τ).loc Cert.KernelIdeal.main_arg1) : Tokens) :=
    fun c => isReal_of_pre _ _ (hpre c)
  refine ⟨fun c _ => total
      (centroid (m ((c.tc : Thread Cert.KernelIdeal.nD Cert.KernelIdeal.τ).loc Cert.KernelIdeal.main_arg0)))
      (centroid (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KernelValue.result m ρ Cert.KernelIdeal.LossValue.loss_payload c), (h c).2.1, (h c).2.2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq m' c).trans ?_
    rw [(hagree c).1, (hagree c).2]
    funext _
    exact totalScaled_eq _ _ (centroid_isReal _ (hreal c).1) (centroid_isReal _ (hreal c).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
